-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S256x512 : Shape := ⟨2, ![256, 512]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S2048x256 .f32) (main_arg1 : FVec F S256x512 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  main_v8
-- ==== Kernel.lean ====
abbrev S2048x256 : Shape := ⟨2, ![2048, 256]⟩
abbrev S256x512 : Shape := ⟨2, ![256, 512]⟩
abbrev S2048x512 : Shape := ⟨2, ![2048, 512]⟩
abbrev S128x256 : Shape := ⟨2, ![128, 256]⟩
abbrev S256x128 : Shape := ⟨2, ![256, 128]⟩
abbrev S128x128 : Shape := ⟨2, ![128, 128]⟩
abbrev S128x128x1 : Shape := ⟨3, ![128, 128, 1]⟩
abbrev S1x128x128 : Shape := ⟨3, ![1, 128, 128]⟩
abbrev S128x128x128 : Shape := ⟨3, ![128, 128, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x256, .f32⟩
  | .hbm, ⟨1, _⟩ => ⟨S256x512, .f32⟩
  | .hbm, ⟨2, _⟩ => ⟨S2048x512, .f32⟩
  | .local _ .vmem, ⟨0, _⟩ => ⟨S128x256, .f32⟩
  | .local _ .vmem, ⟨1, _⟩ => ⟨S128x256, .f32⟩
  | .local _ .vmem, ⟨2, _⟩ => ⟨S256x128, .f32⟩
  | .local _ .vmem, ⟨3, _⟩ => ⟨S256x128, .f32⟩
  | .local _ .vmem, ⟨4, _⟩ => ⟨S128x128, .f32⟩
  | .local _ .vmem, ⟨5, _⟩ => ⟨S128x128, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S128x256_S128x128_0_0 : ∀ a, (![0, 0] : Fin 2 → Nat) a + S128x128.size a ≤ S128x256.size a
  h_S128x128 : 0 < S128x128.numel
  inb_S256x128_S128x128_0_0 : ∀ a, (![0, 0] : Fin 2 → Nat) a + S128x128.size a ≤ S256x128.size a
  shapeCasts_S128x128_S128x128x1 : S128x128.ShapeCasts S128x128x1
  shapeCasts_S128x128_S1x128x128 : S128x128.ShapeCasts S1x128x128
  broadcasts_S128x128x1_S128x128x128 : S128x128x1.Broadcasts S128x128x128
  broadcasts_S1x128x128_S128x128x128 : S1x128x128.Broadcasts S128x128x128
  reduces_S128x128x128_S128x128 : S128x128x128.Reduces [1] S128x128
  inb_S128x256_S128x128_0_128 : ∀ a, (![0, 128] : Fin 2 → Nat) a + S128x128.size a ≤ S128x256.size a
  inb_S256x128_S128x128_128_0 : ∀ a, (![128, 0] : Fin 2 → Nat) a + S128x128.size a ≤ S256x128.size a
  inb_S128x128_S128x128_0_0 : ∀ a, (![0, 0] : Fin 2 → Nat) a + S128x128.size a ≤ S128x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S2048x256.size a
  hwx0_0 : ∀ i : grid0.Coords, EltTy.bits .f32 = 32 ∨ (Rect.block (s := S2048x256) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x512.size a
  hwx0_1 : ∀ i : grid0.Coords, EltTy.bits .f32 = 32 ∨ (Rect.block (s := S256x512) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S2048x512.size a
  hwx0_2 : ∀ i : grid0.Coords, EltTy.bits .f32 = 32 ∨ (Rect.block (s := S2048x512) S128x128.size (cc0_transform_2 i) (hinb0_2 i)).WholeWords (EltTy.packing .f32)

variable [Facts₀]

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x256 : Shape := ⟨2, ![2048, 256]⟩
abbrev S256x512 : Shape := ⟨2, ![256, 512]⟩
abbrev S_ : Shape := ⟨0, ![]⟩
abbrev S2048x256x1 : Shape := ⟨3, ![2048, 256, 1]⟩
abbrev S1x256x512 : Shape := ⟨3, ![1, 256, 512]⟩
abbrev S2048x256x512 : Shape := ⟨3, ![2048, 256, 512]⟩
abbrev S2048x512 : Shape := ⟨2, ![2048, 512]⟩

abbrev nBuf : Space → Nat
  | .hbm => 17
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S2048x256x1, .f32⟩
  | .hbm, ⟨11, _⟩ => ⟨S1x256x512, .f32⟩
  | .hbm, ⟨12, _⟩ => ⟨S2048x256x512, .f32⟩
  | .hbm, ⟨13, _⟩ => ⟨S2048x256x512, .f32⟩
  | .hbm, ⟨14, _⟩ => ⟨S2048x256x512, .f32⟩
  | .hbm, ⟨15, _⟩ => ⟨S_, .f32⟩
  | .hbm, ⟨16, _⟩ => ⟨S2048x512, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S_S256x512 : S_.BroadcastsInDim S256x512 (![] : Fin 0 → Fin S256x512.rank)
  bcast_S2048x256_S2048x256x1_0_1 : S2048x256.BroadcastsInDim S2048x256x1 (![0, 1] : Fin 2 → Fin S2048x256x1.rank)
  bcast_S256x512_S1x256x512_1_2 : S256x512.BroadcastsInDim S1x256x512 (![1, 2] : Fin 2 → Fin S1x256x512.rank)
  bcast_S2048x256x1_S2048x256x512_0_1_2 : S2048x256x1.BroadcastsInDim S2048x256x512 (![0, 1, 2] : Fin 3 → Fin S2048x256x512.rank)
  bcast_S1x256x512_S2048x256x512_0_1_2 : S1x256x512.BroadcastsInDim S2048x256x512 (![0, 1, 2] : Fin 3 → Fin S2048x256x512.rank)
  reducesTo_S2048x256x512_S2048x512_d1 : S2048x256x512.ReducesTo [1] S2048x512
  h_S_ : 0 < S_.numel

variable [Facts₀]

class Facts : Prop extends Facts₀ where

variable [Facts]
-- ==== Proof.MaxTimes.lean ====
/-
  The max-times product of a matrix with the logistic of another, as one function of the two arrays, and the two
  facts about it that do not depend on any program.

  For x : [2048, 256] and A : [256, 512] over the extended reals the entry at (p, q) is
      max over j < 256 of  x[p, j] · σ(A[j, q]),      σ(a) = 1 / (1 + e^(-a)),
  the maximum taken from ⊥ (the fold of max over the 256 coordinates of the contracted axis).

  * A maximum over 256 coordinates is the maximum of the maxima over its two halves of 128; a further max with ⊥
    changes nothing. Only the order is used (max is the join of a linear order with a bottom): no finiteness.
  * One half read off a [128, 128] block of x and a [128, 128] block of A: the [128, 128, 128] array of products
    x[p, j] · σ(A[j, q]), laid out (p, j, q), reduced by max over its middle axis from the pattern of -∞, is at
    (p, q) the fold of max from ⊥ over j of those products.
-/
import Idealize.ShloMosaic.PureOps.Ideal.Laws
import Idealize.ShloMosaic.Lib.ValueIdx
import Idealize.ShloMosaic.Lib.Pipeline.Value

noncomputable section

namespace Cert.MaxTimes

open Idealize.ShloMosaic Idealize.ShloMosaic.ValueIdx

/-- The pattern of -∞ denotes the bottom of the extended reals. -/
theorem negInf : Ideal.ofBits .f32 0xFF800000#32 = (⊥ : EReal) := by simp [Ideal.ofBits, Ideal.ieee]

/-- The pattern of 1.0 denotes one. -/
theorem one : Ideal.ofBits .f32 0x3F800000#32 = (1 : EReal) := by
  simp [Ideal.ofBits, Ideal.ieee, -EReal.coe_mul]; norm_num

/-- One entry: the maximum over the contracted axis of x[p, j] · σ(A[j, q]). -/
def entry (x : (⟨2, ![2048, 256]⟩ : Shape).Idx → EReal) (A : (⟨2, ![256, 512]⟩ : Shape).Idx → EReal)
    (p : Fin 2048) (q : Fin 512) : EReal :=
  (Finset.univ : Finset (Fin 256)).fold max ⊥ fun j => x (ix2 p j) * Ideal.logistic (A (ix2 j q))

/-- The whole [2048, 512] array. -/
def G (x : (⟨2, ![2048, 256]⟩ : Shape).Idx → EReal) (A : (⟨2, ![256, 512]⟩ : Shape).Idx → EReal) :
    (⟨2, ![2048, 512]⟩ : Shape).Idx → EReal :=
  fun i => entry x A (i 0) (i 1)

/-- A maximum over 256 coordinates, from ⊥, is the maximum of the maxima over the first and the second 128 of them;
    taking the first of the two against ⊥ once more changes nothing. -/
theorem fold_max_halves (f : Fin 256 → EReal) :
    (Finset.univ : Finset (Fin 256)).fold max ⊥ f
      = max (max ⊥ ((Finset.univ : Finset (Fin 128)).fold max ⊥ fun k => f ⟨k.val, by omega⟩))
          ((Finset.univ : Finset (Fin 128)).fold max ⊥ fun k => f ⟨128 + k.val, by omega⟩) := by
  apply le_antisymm
  · rw [Finset.fold_max_le]
    refine ⟨bot_le, fun j _ => ?_⟩
    by_cases hj : j.val < 128
    · refine le_max_of_le_left (le_max_of_le_right ?_)
      rw [Finset.le_fold_max]
      exact Or.inr ⟨⟨j.val, hj⟩, Finset.mem_univ _, le_rfl⟩
    · refine le_max_of_le_right ?_
      rw [Finset.le_fold_max]
      refine Or.inr ⟨⟨j.val - 128, by omega⟩, Finset.mem_univ _, ?_⟩
      have e : (⟨128 + (j.val - 128), by omega⟩ : Fin 256) = j := Fin.ext (by show 128 + (j.val - 128) = j.val; omega)
      show f j ≤ f ⟨128 + (j.val - 128), _⟩
      rw [e]
  · refine max_le (max_le bot_le ?_) ?_
    · rw [Finset.fold_max_le]
      refine ⟨bot_le, fun k _ => ?_⟩
      rw [Finset.le_fold_max]
      exact Or.inr ⟨_, Finset.mem_univ _, le_rfl⟩
    · rw [Finset.fold_max_le]
      refine ⟨bot_le, fun k _ => ?_⟩
      rw [Finset.le_fold_max]
      exact Or.inr ⟨_, Finset.mem_univ _, le_rfl⟩

/-- One half, read off two [128, 128] blocks: the products laid out (p, j, q) and reduced by max over j from the
    pattern of -∞ are, at (p, q), the fold of max from ⊥ over j of P[p, j] · σ(Q[j, q]). -/
theorem half_max (P Q : FVec Ideal ⟨2, ![128, 128]⟩ .f32)
    (hP : (⟨2, ![128, 128]⟩ : Shape).ShapeCasts ⟨3, ![128, 128, 1]⟩)
    (hQ : (⟨2, ![128, 128]⟩ : Shape).ShapeCasts ⟨3, ![1, 128, 128]⟩)
    (bP : (⟨3, ![128, 128, 1]⟩ : Shape).Broadcasts ⟨3, ![128, 128, 128]⟩)
    (bQ : (⟨3, ![1, 128, 128]⟩ : Shape).Broadcasts ⟨3, ![128, 128, 128]⟩)
    (hr : (⟨3, ![128, 128, 128]⟩ : Shape).Reduces [1] ⟨2, ![128, 128]⟩)
    (hφ : FKind.Formats .f32) (hacc : (0xFF800000#32 : BitVec 32) = FKind.maximumf.neutral .f32 hφ)
    (p q : Fin 128) :
    multiReduction (F := Ideal) .maximumf [1] ⟨2, ![128, 128]⟩
        (mulf (broadcastTo ⟨3, ![128, 128, 128]⟩ (shapeCast ⟨3, ![128, 128, 1]⟩ P hP) bP)
          (broadcastTo ⟨3, ![128, 128, 128]⟩ (shapeCast ⟨3, ![1, 128, 128]⟩ (logistic Q) hQ) bQ))
        0xFF800000#32 hr hφ hacc (ix2 p q)
      = (Finset.univ : Finset (Fin 128)).fold max ⊥ fun j => P (ix2 p j) * Ideal.logistic (Q (ix2 j q)) := by
  rw [Ideal.multiReduction_maximumf_single]
  show (Finset.univ : Finset (Fin 128)).fold max (Ideal.ofBits .f32 0xFF800000#32) _ = _
  rw [negInf]
  congr 1
  funext j
  show (broadcastTo ⟨3, ![128, 128, 128]⟩ (shapeCast ⟨3, ![128, 128, 1]⟩ P hP) bP) (hr.lift (ix2 p q) j)
      * (broadcastTo ⟨3, ![128, 128, 128]⟩ (shapeCast ⟨3, ![1, 128, 128]⟩ (logistic Q) hQ) bQ) (hr.lift (ix2 p q) j) = _
  have c0 : ((hr.lift (ix2 p q) j) (0 : Fin 3)).val = p.val := rfl
  have c1 : ((hr.lift (ix2 p q) j) (1 : Fin 3)).val = j.val := rfl
  have c2 : ((hr.lift (ix2 p q) j) (2 : Fin 3)).val = q.val := rfl
  have eP : (broadcastTo ⟨3, ![128, 128, 128]⟩ (shapeCast ⟨3, ![128, 128, 1]⟩ P hP) bP) (hr.lift (ix2 p q) j) = P (ix2 p j) := by
    rw [broadcastTo_apply _ bP _ (ix3 p j (0 : Fin 1)) (fun a => by
      match a with
      | ⟨0, _⟩ => exact c0.symm
      | ⟨1, _⟩ => exact c1.symm
      | ⟨2, _⟩ => rfl)]
    refine shapeCast_apply _ hP _ (ix2 p j) ?_
    rw [Shape.rowMajor_val_two, Shape.rowMajor_val_three]
    show p.val * 128 + j.val = (p.val * 128 + j.val) * 1 + 0
    omega
  have eQ : (broadcastTo ⟨3, ![128, 128, 128]⟩ (shapeCast ⟨3, ![1, 128, 128]⟩ (logistic Q) hQ) bQ) (hr.lift (ix2 p q) j)
      = Ideal.logistic (Q (ix2 j q)) := by
    rw [broadcastTo_apply _ bQ _ (ix3 (0 : Fin 1) j q) (fun a => by
      match a with
      | ⟨0, _⟩ => rfl
      | ⟨1, _⟩ => exact c1.symm
      | ⟨2, _⟩ => exact c2.symm)]
    refine (shapeCast_apply _ hQ _ (ix2 j q) ?_).trans rfl
    rw [Shape.rowMajor_val_two, Shape.rowMajor_val_three]
    show j.val * 128 + q.val = (0 * 128 + j.val) * 128 + q.val
    omega
  rw [eP, eQ]

end Cert.MaxTimes

end
-- ==== Proof.RefValue.lean ====
/-
  The reference, read at an index, is the max-times product.

  The reference spells σ(A) as 1 / (1 + exp(-A)) on the whole [256, 512] array, broadcasts x to [2048, 256, 1] and σ(A)
  to [1, 256, 512], multiplies the two over [2048, 256, 512] and reduces by max over the middle axis from the pattern
  of -∞. At the entry (p, q) the reduction is the fold of max over the 256 coordinates j of the middle axis, the
  operand there is x[p, j] · (1 / (1 + exp(-A[j, q]))), and the quotient is the logistic function by its definition on
  the extended reals (the pattern of 1.0 denotes one).
-/
import proofs.«145753_j12876311954034_1_alg».proof.Proof.Gen.ReferenceIdeal.Read
import proofs.«145753_j12876311954034_1_alg».proof.Proof.MaxTimes
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- The reduced axis of [2048, 256, 512] is its middle one; the kept shape is [2048, 512]. -/
theorem reduces_mid : S2048x256x512.Reduces [1] S2048x512 := by decide

/-- Where the product array reads x: the entry's row and the reduced coordinate. -/
theorem idx_x (p : Fin 2048) (q : Fin 512) (j : Fin 256) :
    idx_main_v6 (idx_main_v8 (reduces_mid.lift (ix2 p q) j)) = ix2 p j :=
  funext fun a => Fin.ext (by match a with | ⟨0, _⟩ => rfl | ⟨1, _⟩ => rfl)

/-- Where the product array reads σ(A): the reduced coordinate and the entry's column. -/
theorem idx_A (p : Fin 2048) (q : Fin 512) (j : Fin 256) :
    idx_main_v7 (idx_main_v9 (reduces_mid.lift (ix2 p q) j)) = ix2 j q :=
  funext fun a => Fin.ext (by match a with | ⟨0, _⟩ => rfl | ⟨1, _⟩ => rfl)

/-- The reference's last stage is the max-times product of its two arguments. -/
theorem reference_eq (x0 : (⟨S2048x256, .f32⟩ : BufTy).Contents (Elt Ideal)) (x1 : (⟨S256x512, .f32⟩ : BufTy).Contents (Elt Ideal)) :
    val_main_v11 (F := Ideal) x0 x1 = Cert.MaxTimes.G x0 x1 := by
  funext i
  obtain ⟨p, q, rfl⟩ : ∃ (p : Fin 2048) (q : Fin 512), i = ix2 p q := ⟨i 0, i 1, eq_ix2 i⟩
  unfold val_main_v11
  rw [Host.reduce_eq_fold_single FloatOps.maximumf _ _ reducesTo_S2048x256x512_S2048x512_d1 reduces_mid h_S_]
  show (Finset.univ : Finset (Fin 256)).fold max (Ideal.ofBits .f32 0xFF800000#32) _
      = (Finset.univ : Finset (Fin 256)).fold max ⊥ fun j => x0 (ix2 p j) * Ideal.logistic (x1 (ix2 j q))
  rw [Cert.MaxTimes.negInf]
  refine congrArg (fun f : Fin 256 → EReal => (Finset.univ : Finset (Fin 256)).fold max ⊥ f) (funext fun j : Fin 256 => ?_)
  show val_main_v10 (F := Ideal) x0 x1 (reduces_mid.lift (ix2 p q) j) = _
  rw [val_main_v10_apply, val_main_v8_apply, val_main_v6_apply, val_main_v9_apply, val_main_v7_apply, val_main_v5_apply,
    val_main_v4_apply, val_main_cst_0_apply, val_main_v3_apply, val_main_v2_apply, val_main_cst_apply, val_main_v1_apply,
    val_main_v0_apply, idx_x, idx_A]
  simp only [Ideal.mulf_def, Ideal.hostDivf_def, Ideal.addf_def, Ideal.hostUnary_exp_def, Ideal.hostNegf_def, Ideal.negf_def,
    Ideal.ofBits_def, Cert.MaxTimes.one]
  rfl

end Cert.ReferenceIdeal.RefValue

end
-- ==== Proof.KernelValue.lean ====
/-
  What the kernel leaves in its output array is the max-times product.

  At a grid point (bi, bk) of the 16 × 4 grid the body holds rows bi·128 … bi·128 + 127 of x (a [128, 256] block) and
  columns bk·128 … bk·128 + 127 of A (a [256, 128] block). It takes the two halves of the contracted axis in turn: for
  each half it forms the [128, 128, 128] array of products x[p, j] · σ(A[j, q]) and reduces it by max over j from -∞, and
  it stores the maximum of -∞ and the two halves' results. By the two facts about the product (one half as a fold of
  max; a fold over 256 coordinates as the maximum of the folds over its halves) the stored block at (p, q) is the entry
  (bi·128 + p, bk·128 + q) of the product. The 64 blocks tile the [2048, 512] array, so the array ends as the product.
-/
import proofs.«145753_j12876311954034_1_alg».proof.Proof.Gen.KernelIdeal.Value
import proofs.«145753_j12876311954034_1_alg».proof.Proof.MaxTimes
import Idealize.ShloMosaic.Lib.ValueIdx
import Idealize.ShloMosaic.Lib.Pipeline.Value

noncomputable section

namespace Cert.KernelIdeal.MaxTimesValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

/-! ## One block, over variables -/

/-- The two block indices the stored value's halves are read at are the block index itself. -/
theorem at_lo (p q : Fin 128) : ix2_0 (ix2 p q) = ix2 p q :=
  funext fun a => Fin.ext (by match a with | ⟨0, _⟩ => rfl | ⟨1, _⟩ => rfl)
theorem at_hi (p q : Fin 128) : ix2_1 (ix2 p q) = ix2 p q :=
  funext fun a => Fin.ext (by match a with | ⟨0, _⟩ => rfl | ⟨1, _⟩ => rfl)

/-- The stored value over four loaded [128, 128] pieces: the maximum of -∞ and the two halves' maxima. -/
theorem stored_entry (P0 P1 P2 P3 : Vec Ideal S128x128 .f32) (p q : Fin 128) :
    E2 (F := Ideal) P0 P1 P2 P3 (ix2 p q)
      = max (max ⊥ ((Finset.univ : Finset (Fin 128)).fold max ⊥ fun j => P0 (ix2 p j) * Ideal.logistic (P1 (ix2 j q))))
          ((Finset.univ : Finset (Fin 128)).fold max ⊥ fun j => P2 (ix2 p j) * Ideal.logistic (P3 (ix2 j q))) := by
  unfold E2
  rw [at_lo, at_hi]
  show max (max (Ideal.ofBits .f32 0xFF800000#32) _) _ = _
  rw [Cert.MaxTimes.negInf]
  exact congrArg₂ max (congrArg (max ⊥) (Cert.MaxTimes.half_max P0 P1 _ _ _ _ _ _ _ p q))
    (Cert.MaxTimes.half_max P2 P3 _ _ _ _ _ _ _ p q)

/-- The four loads read the two halves of the x block's columns and of the A block's rows. -/
theorem ld_x_lo (x0 : Vec Ideal S128x256 .f32) (p j : Fin 128) : View.ld x0 r0_0 (ix2 p j) = x0 (ix2 p ⟨j.val, by omega⟩) :=
  congrArg x0 (funext fun a => Fin.ext (by
    match a with
    | ⟨0, _⟩ => show 0 + 1 * p.val = p.val; omega
    | ⟨1, _⟩ => show 0 + 1 * j.val = j.val; omega))
theorem ld_x_hi (x0 : Vec Ideal S128x256 .f32) (p j : Fin 128) : View.ld x0 r0_2 (ix2 p j) = x0 (ix2 p ⟨128 + j.val, by omega⟩) :=
  congrArg x0 (funext fun a => Fin.ext (by
    match a with
    | ⟨0, _⟩ => show 0 + 1 * p.val = p.val; omega
    | ⟨1, _⟩ => show 128 + 1 * j.val = 128 + j.val; omega))
theorem ld_a_lo (x1 : Vec Ideal S256x128 .f32) (j q : Fin 128) : View.ld x1 r0_1 (ix2 j q) = x1 (ix2 ⟨j.val, by omega⟩ q) :=
  congrArg x1 (funext fun a => Fin.ext (by
    match a with
    | ⟨0, _⟩ => show 0 + 1 * j.val = j.val; omega
    | ⟨1, _⟩ => show 0 + 1 * q.val = q.val; omega))
theorem ld_a_hi (x1 : Vec Ideal S256x128 .f32) (j q : Fin 128) : View.ld x1 r0_3 (ix2 j q) = x1 (ix2 ⟨128 + j.val, by omega⟩ q) :=
  congrArg x1 (funext fun a => Fin.ext (by
    match a with
    | ⟨0, _⟩ => show 128 + 1 * j.val = 128 + j.val; omega
    | ⟨1, _⟩ => show 0 + 1 * q.val = q.val; omega))

/-- What the body leaves at (p, q) of its output block, over the x block and the A block: the maximum over all 256
    coordinates of the contracted axis of x[p, j] · σ(A[j, q]). -/
theorem block_entry (x0 : Vec Ideal S128x256 .f32) (x1 : Vec Ideal S256x128 .f32) (p q : Fin 128) :
    out0_2 (F := Ideal) x0 x1 (ix2 p q)
      = (Finset.univ : Finset (Fin 256)).fold max ⊥ fun j => x0 (ix2 p j) * Ideal.logistic (x1 (ix2 j q)) := by
  unfold out0_2
  rw [canon2_eq, stored_entry, Cert.MaxTimes.fold_max_halves]
  have hlo : (fun j : Fin 128 => View.ld x0 r0_0 (ix2 p j) * Ideal.logistic (View.ld x1 r0_1 (ix2 j q)))
      = fun k : Fin 128 => x0 (ix2 p ⟨k.val, by omega⟩) * Ideal.logistic (x1 (ix2 ⟨k.val, by omega⟩ q)) :=
    funext fun j => by rw [ld_x_lo, ld_a_lo]
  have hhi : (fun j : Fin 128 => View.ld x0 r0_2 (ix2 p j) * Ideal.logistic (View.ld x1 r0_3 (ix2 j q)))
      = fun k : Fin 128 => x0 (ix2 p ⟨128 + k.val, by omega⟩) * Ideal.logistic (x1 (ix2 ⟨128 + k.val, by omega⟩ q)) :=
    funext fun j => by rw [ld_x_hi, ld_a_hi]
  rw [hlo, hhi]

/-- The same with the blocks read off whole arrays X and A at the block coordinates (bi, bk): the block's value at a
    block index y is the product's entry at (bi·128 + y₀, bk·128 + y₁). -/
theorem block_eq_product (x0 : Vec Ideal S128x256 .f32) (x1 : Vec Ideal S256x128 .f32)
    (X : S2048x256.Idx → EReal) (A : S256x512.Idx → EReal) (bi bk : Nat) (hbi : bi < 16) (hbk : bk < 4)
    (hx : ∀ (p : Fin 128) (j : Fin 256), x0 (ix2 p j) = X (ix2 ⟨bi * 128 + p.val, by omega⟩ j))
    (hA : ∀ (j : Fin 256) (q : Fin 128), x1 (ix2 j q) = A (ix2 j ⟨bk * 128 + q.val, by omega⟩))
    (y : S128x128.Idx) :
    out0_2 (F := Ideal) x0 x1 y
      = Cert.MaxTimes.G X A (ix2 ⟨bi * 128 + (y 0).val, by have := idx2_lt0 y; omega⟩ ⟨bk * 128 + (y 1).val, by have := idx2_lt1 y; omega⟩) := by
  obtain ⟨p, q, rfl⟩ : ∃ (p q : Fin 128), y = ix2 p q := ⟨y 0, y 1, eq_ix2 y⟩
  rw [block_entry]
  show _ = (Finset.univ : Finset (Fin 256)).fold max ⊥ fun j =>
    X (ix2 ⟨bi * 128 + p.val, _⟩ j) * Ideal.logistic (A (ix2 j ⟨bk * 128 + q.val, _⟩))
  exact congrArg (fun f : Fin 256 → EReal => (Finset.univ : Finset (Fin 256)).fold max ⊥ f)
    (funext fun j => by rw [hx, hA])

end Cert.KernelIdeal.MaxTimesValue

end
-- ==== Proof.KernelArray.lean ====
/-
  From the 64 blocks to the whole array, and the kernel's run with its result named.

  Grid point t = (bi, bk) stages rows bi·128 … of x (all 256 columns), columns bk·128 … of A (all 256 rows) and writes
  back the [128, 128] block at (bi, bk) of the output. These relations between the three index maps are decided once
  over the 64 points. So what point t writes back is the block at t of the max-times product of the two argument
  arrays; every index of the [2048, 512] output lies in the block of the point (row / 128, column / 128); hence the
  output array ends as the product.
-/
import proofs.«145753_j12876311954034_1_alg».proof.Proof.KernelValue

noncomputable section

namespace Cert.KernelIdeal.MaxTimesValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The three index maps over the grid: x's block follows the output's row block and is always at column block 0; A's
    block is always at row block 0 and follows the output's column block; the output's block coordinates stay below
    16 and 4. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) < 16 ∧ win0_2.index t (1 : Fin 2) < 4 :=
  (by decide +kernel : ∀ t : Fin grid0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) < 16 ∧ win0_2.index t (1 : Fin 2) < 4)

/-- Every block coordinate pair of the output is some grid point's. -/
theorem idx_onto : ∀ (q0 : Fin 16) (q1 : Fin 4), ∃ t : Fin cfg0.N, win0_2.index t = ![q0.val, q1.val] :=
  (by decide +kernel : ∀ (q0 : Fin 16) (q1 : Fin 4), ∃ t : Fin grid0.N, win0_2.index t = ![q0.val, q1.val])

/-- What grid point t writes back is the block at t of the max-times product of the argument arrays. -/
theorem flushed_eq (c : Dev nD) (t : Fin cfg0.N) :
    (dats m 0 c).flushed 2 t
      = ((cfg0.win 2).blk t).view.read (Elt Ideal) (Cert.MaxTimes.G (V m c main_arg0) (V m c main_arg1)) := by
  rw [Value.flushed2]
  obtain ⟨e0, e1, e2, e3, b0, b1⟩ := idx_facts t
  funext y
  show out0_2 (iblk m c 0 t) (iblk m c 1 t) y
    = Cert.MaxTimes.G (V m c main_arg0) (V m c main_arg1) (((cfg0.win 2).blk t).view.emb y)
  refine (block_eq_product (iblk m c 0 t) (iblk m c 1 t) (V m c main_arg0) (V m c main_arg1)
    (win0_2.index t (0 : Fin 2)) (win0_2.index t (1 : Fin 2)) b0 b1 ?_ ?_ y).trans ?_
  · intro p j
    show V m c main_arg0 (((cfg0.win 0).blk t).view.emb (ix2 p j)) = V m c main_arg0 _
    refine congrArg (V m c main_arg0) (funext fun a => Fin.ext ?_)
    match a with
    | ⟨0, _⟩ => show win0_0.index t (0 : Fin 2) * 128 + 1 * p.val = win0_2.index t (0 : Fin 2) * 128 + p.val; omega
    | ⟨1, _⟩ => show win0_0.index t (1 : Fin 2) * 256 + 1 * j.val = j.val; omega
  · intro j q
    show V m c main_arg1 (((cfg0.win 1).blk t).view.emb (ix2 j q)) = V m c main_arg1 _
    refine congrArg (V m c main_arg1) (funext fun a => Fin.ext ?_)
    match a with
    | ⟨0, _⟩ => show win0_1.index t (0 : Fin 2) * 256 + 1 * j.val = j.val; omega
    | ⟨1, _⟩ => show win0_1.index t (1 : Fin 2) * 128 + 1 * q.val = win0_2.index t (1 : Fin 2) * 128 + q.val; omega
  · refine congrArg (Cert.MaxTimes.G (V m c main_arg0) (V m c main_arg1)) (funext fun a => Fin.ext ?_)
    match a with
    | ⟨0, _⟩ => show win0_2.index t (0 : Fin 2) * 128 + (y 0).val = win0_2.index t (0 : Fin 2) * 128 + 1 * (y 0).val; omega
    | ⟨1, _⟩ => show win0_2.index t (1 : Fin 2) * 128 + (y 1).val = win0_2.index t (1 : Fin 2) * 128 + 1 * (y 1).val; omega

/-- An index of the output is in point t's block iff each coordinate is in the block's range on its axis. -/
theorem mem_blk (t : Fin cfg0.N) (i : S2048x512.Idx) :
    i ∈ ((cfg0.win 2).blk t).view.set
      ↔ ∀ a : Fin 2, win0_2.index t a * S128x128.size a ≤ (i a).val ∧ (i a).val < win0_2.index t a * S128x128.size a + S128x128.size a := by
  show i ∈ ((View.whole main_v0).slice (win0_2.rect t)).set ↔ _
  rw [View.set_slice_whole, Rect.mem_set_unit]
  exact Iff.rfl

/-- Every index of the output is in the block of the point at (row / 128, column / 128). -/
theorem cover (i : S2048x512.Idx) : ∃ t : Fin cfg0.N, (cfg0.win 2).flush t = true ∧ i ∈ ((cfg0.win 2).blk t).view.set := by
  have hi0 : (i 0).val < 2048 := (i 0).isLt
  have hi1 : (i 1).val < 512 := (i 1).isLt
  obtain ⟨t, ht⟩ := idx_onto ⟨(i 0).val / 128, by omega⟩ ⟨(i 1).val / 128, by omega⟩
  have q0 : win0_2.index t (0 : Fin 2) = (i 0).val / 128 := congrFun ht 0
  have q1 : win0_2.index t (1 : Fin 2) = (i 1).val / 128 := congrFun ht 1
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 128 ≤ (i 1).val ∧ (i 1).val < win0_2.index t (1 : Fin 2) * 128 + 128; omega

/-- The output array after the run is the max-times product of the argument arrays. -/
theorem final (c : Dev nD) :
    (dats m 0 c).arrAt 2 cfg0.N
      = Cert.MaxTimes.G (m ((c : Thread nD τ).loc main_arg0)) (m ((c : Thread nD τ).loc main_arg1)) :=
  (dats m 0 c).arrAt_eq_of_cover 2 (Cert.MaxTimes.G (V m c main_arg0) (V m c main_arg1)) (fun t _ => flushed_eq m c t) cover

/-- The kernel's run: it terminates with the output array at the product and the arguments unchanged. -/
theorem run : θ_run defs (onTc (τ := τ) (main (F := Ideal))) ⟨m, fun _ => 0, ρ⟩ fun r => ∀ c : Dev nD,
      r.2.mem ((c : Thread nD τ).loc main_v0)
        = Cert.MaxTimes.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.MaxTimesValue

end
-- ==== Proof.lean ====
/-
  The kernel computes out[i, k] = max over j of x[i, j] · σ(A[j, k]) for x : [2048, 256], A : [256, 512], σ the logistic
  function, on a 16 × 4 grid of [128, 128] output blocks; inside a block it splits the contracted axis into two halves
  of 128, takes each half's maximum from -∞ and joins them (with one more maximum against -∞). The reference spells σ(A)
  as 1 / (1 + exp(-A)), forms all 2048 × 256 × 512 products and reduces them by max over the middle axis from -∞.

  Over the extended reals both are one function of the arguments (Proof/MaxTimes.lean): the logistic function is that
  quotient by definition, and a maximum over 256 coordinates is the maximum of the maxima over its two halves, the
  extra -∞ being the bottom element. Only the order of the extended reals is used, so the precondition (finite inputs)
  is not needed for the value.

  Proof/RefValue.lean reads the reference's last stage at an index; Proof/KernelValue.lean reads the kernel body's
  stored block at an index; Proof/KernelArray.lean assembles the 64 blocks into the output array and states the
  kernel's run. The frames of the two kernel programs are the generated ones; the reference's frame is its run with
  the result dropped; the idealization rewrote nothing.
-/
import proofs.«145753_j12876311954034_1_alg».proof.Defs
import proofs.«145753_j12876311954034_1_alg».proof.Proof.Gen.Kernel
import proofs.«145753_j12876311954034_1_alg».proof.Proof.Gen.Kernel.Skeleton
import proofs.«145753_j12876311954034_1_alg».proof.Proof.Gen.Kernel.Launch
import proofs.«145753_j12876311954034_1_alg».proof.Proof.Gen.Kernel.Points
import proofs.«145753_j12876311954034_1_alg».proof.Proof.Gen.Kernel.Frame
import proofs.«145753_j12876311954034_1_alg».proof.Proof.Gen.KernelIdeal
import proofs.«145753_j12876311954034_1_alg».proof.Proof.Gen.KernelIdeal.Skeleton
import proofs.«145753_j12876311954034_1_alg».proof.Proof.Gen.KernelIdeal.Launch
import proofs.«145753_j12876311954034_1_alg».proof.Proof.Gen.KernelIdeal.Points
import proofs.«145753_j12876311954034_1_alg».proof.Proof.Gen.KernelIdeal.Frame
import proofs.«145753_j12876311954034_1_alg».proof.Proof.Gen.ReferenceIdeal
import proofs.«145753_j12876311954034_1_alg».proof.Proof.Gen.Pre_finite_inputs
import proofs.«145753_j12876311954034_1_alg».proof.Proof.Gen.KernelIdeal.Value
import proofs.«145753_j12876311954034_1_alg».proof.Proof.Gen.ReferenceIdeal.Run
import proofs.«145753_j12876311954034_1_alg».proof.Proof.Gen.ReferenceIdeal.Read
import proofs.«145753_j12876311954034_1_alg».proof.Proof.MaxTimes
import proofs.«145753_j12876311954034_1_alg».proof.Proof.RefValue
import proofs.«145753_j12876311954034_1_alg».proof.Proof.KernelValue
import proofs.«145753_j12876311954034_1_alg».proof.Proof.KernelArray
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on x and A both programs end with the max-times product of x and A in their result. -/
theorem algebraic : Cert.algebraic_KernelIdeal_ReferenceIdeal := by
  intro m ρ m' ρ' _ hagree
  refine ⟨fun c => Cert.MaxTimes.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.MaxTimesValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v11_eq, Cert.ReferenceIdeal.RefValue.reference_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
